-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 35
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BiasRows.lean ====
/-
  The two biases as the kernel's region finds them: each a [128] argument recast by the host as one [1, 128] row.
-/
import proofs.«146880_j75634374082904_1_alg».proof.Proof.Gen.KernelIdeal.Frame
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen

variable (m : (ℓ : Loc nD τ sig) → Buf (Elt Ideal) ℓ)

set_option maxHeartbeats 1000000 in
/-- The first bias as the region finds it: the argument recast as one row. -/
theorem V_b1 (c : Dev nD) : (V m c main_v19 : S1x128.Idx → EReal)
    = shapeCast S1x128 (m ((c : Thread nD τ).loc main_arg4) : S128.Idx → EReal) shapeCasts_S128_S1x128 := by
  dsimp only [V, hostOps0]
  after_results_simp
  rfl

set_option maxHeartbeats 1000000 in
/-- The second bias as the region finds it: the argument recast as one row. -/
theorem V_b2 (c : Dev nD) : (V m c main_v20 : S1x128.Idx → EReal)
    = shapeCast S1x128 (m ((c : Thread nD τ).loc main_arg6) : S128.Idx → EReal) shapeCasts_S128_S1x128 := by
  dsimp only [V, hostOps0]
  after_results_simp
  rfl

end Cert.KernelIdeal.Whole

end
-- ==== Proof.Blocks.lean ====
/-
  The blocks the kernel stages at grid point t of 25, as entries of the arrays the region finds: rows 2000·t … 2000·t + 1999
  of the node features and of the aggregated features; the two weight matrices whole; the two biases' single rows.
-/
import proofs.«146880_j75634374082904_1_alg».proof.Proof.Gen.KernelIdeal.Value
import proofs.«146880_j75634374082904_1_alg».proof.Proof.BiasRows
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ)

/-- The printed index maps, decided over the 25 grid points: the two row-blocked inputs move with the output, whose block
    index is the point itself; the four whole inputs stay at block (0, 0). -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Block t of the node features is rows 2000·t … of the argument. -/
theorem h_block (c : Dev nD) (t : Fin cfg0.N) (p : Fin 2000) (k : Fin 128) (r : Fin 50000) (hr : r.val = 2000 * t.val + p.val) :
    (iblk m c 0 t : S2000x128.Idx → EReal) (ix2 p k) = (m ((c : Thread nD τ).loc main_arg0) : S50000x128.Idx → EReal) (ix2 r k) := by
  obtain ⟨-, -, e0, e1, -⟩ := idx_facts t
  unfold iblk
  rw [View.read_apply]
  show V m c main_arg0 _ = _
  rw [V_main_arg0]
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- Block t of the second window, read off ANY contents of its array, is rows 2000·t … of those contents. -/
theorem rows_of (c : Dev nD) (f : Buf (Elt Ideal) ((c : Thread nD τ).loc main_v18)) (t : Fin cfg0.N) (p : Fin 2000) (k : Fin 128)
    (r : Fin 50000) (hr : r.val = 2000 * t.val + p.val) :
    (((cfg0.win 1).blk t).view.read (Elt Ideal) f : S2000x128.Idx → EReal) (ix2 p k) = (f : S50000x128.Idx → EReal) (ix2 r k) := by
  obtain ⟨-, -, -, -, e0, e1, -⟩ := idx_facts t
  rw [View.read_apply]
  show f _ = f _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- Block t of the aggregated features is rows 2000·t … of their buffer. -/
theorem a_block (c : Dev nD) (t : Fin cfg0.N) (p : Fin 2000) (k : Fin 128) (r : Fin 50000) (hr : r.val = 2000 * t.val + p.val) :
    (iblk m c 1 t : S2000x128.Idx → EReal) (ix2 p k) = (V m c main_v18 : S50000x128.Idx → EReal) (ix2 r k) :=
  rows_of c (V m c main_v18) t p k r hr

/-- The first weight matrix's one block is the argument. -/
theorem w1_block (c : Dev nD) (t : Fin cfg0.N) (k q : Fin 128) :
    (iblk m c 2 t : S128x128.Idx → EReal) (ix2 k q) = (m ((c : Thread nD τ).loc main_arg3) : S128x128.Idx → EReal) (ix2 k q) := by
  obtain ⟨-, -, -, -, -, -, e0, e1, -⟩ := idx_facts t
  unfold iblk
  rw [View.read_apply]
  show V m c main_arg3 _ = _
  rw [V_main_arg3]
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The second weight matrix's one block is the argument. -/
theorem w2_block (c : Dev nD) (t : Fin cfg0.N) (k q : Fin 128) :
    (iblk m c 4 t : S128x128.Idx → EReal) (ix2 k q) = (m ((c : Thread nD τ).loc main_arg5) : S128x128.Idx → EReal) (ix2 k q) := by
  obtain ⟨-, -, -, -, -, -, -, -, -, -, e0, e1, -⟩ := idx_facts t
  unfold iblk
  rw [View.read_apply]
  show V m c main_arg5 _ = _
  rw [V_main_arg5]
  congr 1
  funext a
  apply Fin.ext
  match a with
  | ⟨0, _⟩ => show win0_4.index t 0 * 128 + 1 * k.val = k.val; rw [e0]; omega
  | ⟨1, _⟩ => show win0_4.index t 1 * 128 + 1 * q.val = q.val; rw [e1]; omega

/-- The first bias's one block, a row, reads the argument's column. -/
theorem b1_block (c : Dev nD) (t : Fin cfg0.N) (q : Fin 128) :
    (iblk m c 3 t : S1x128.Idx → EReal) (ix2 (0 : Fin 1) q) = (m ((c : Thread nD τ).loc main_arg4) : S128.Idx → EReal) (ix1 q) := by
  obtain ⟨-, -, -, -, -, -, -, -, e0, e1, -⟩ := idx_facts t
  unfold iblk
  rw [View.read_apply]
  show (V m c main_v19 : S1x128.Idx → EReal) _ = _
  rw [V_b1]
  refine shapeCast_apply _ shapeCasts_S128_S1x128 _ (ix1 q) ?_
  rw [Shape.rowMajor_val_one, Shape.rowMajor_val_two]
  show q.val = (win0_3.index t 0 * 1 + 1 * 0) * 128 + (win0_3.index t 1 * 128 + 1 * q.val)
  rw [e0, e1]; omega

/-- The second bias's one block, a row, reads the argument's column. -/
theorem b2_block (c : Dev nD) (t : Fin cfg0.N) (q : Fin 128) :
    (iblk m c 5 t : S1x128.Idx → EReal) (ix2 (0 : Fin 1) q) = (m ((c : Thread nD τ).loc main_arg6) : S128.Idx → EReal) (ix1 q) := by
  obtain ⟨-, -, -, -, -, -, -, -, -, -, -, -, e0, e1⟩ := idx_facts t
  unfold iblk
  rw [View.read_apply]
  show (V m c main_v20 : S1x128.Idx → EReal) _ = _
  rw [V_b2]
  refine shapeCast_apply _ shapeCasts_S128_S1x128 _ (ix1 q) ?_
  rw [Shape.rowMajor_val_one, Shape.rowMajor_val_two]
  show q.val = (win0_5.index t 0 * 1 + 1 * 0) * 128 + (win0_5.index t 1 * 128 + 1 * q.val)
  rw [e0, e1]; omega

end Cert.KernelIdeal.Whole

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.BlockValue.lean ====
/-
  One entry of what the kernel body stores for a block of 2000 rows, on the extended reals. The body narrows its four
  matrix operands to bf16 (the identity on extended reals), multiplies the feature block by W1 and the neighbour block
  by W2 into zero accumulators, and adds, from the left, the first product, the bias row b1 spread over the rows, the
  second product, and the bias row b2:

      stored(p, q) = ((Σ_k x(p, k) · W1(k, q) + b1(0, q)) + Σ_k y(p, k) · W2(k, q)) + b2(0, q),   k < 128.
-/
import proofs.«146880_j75634374082904_1_alg».proof.Proof.Gen.KernelIdeal.Skeleton
import proofs.«146880_j75634374082904_1_alg».proof.Proof.LibOuterDot
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx

/-- A [1, 128] row spread over 2000 rows reads at (p, q) the row's column q. -/
theorem row_over_rows {α : Type} (b : S1x128.Idx → α) (p : Fin 2000) (q : Fin 128) :
    broadcastTo S2000x128 b broadcasts_S1x128_S2000x128 (ix2 p q) = b (ix2 (0 : Fin 1) q) := by
  refine broadcastTo_apply b broadcasts_S1x128_S2000x128 (ix2 p q) (ix2 (0 : Fin 1) q) (fun a => ?_)
  match a with
  | ⟨0, _⟩ => show (0 : ℕ) = if (1 : ℕ) = 1 then 0 else p.val; rw [if_pos rfl]
  | ⟨1, _⟩ => show q.val = if (128 : ℕ) = 1 then 0 else q.val; rw [if_neg (by decide)]

/-- A [2000, 128] block times a [128, 128] matrix into the zero accumulator, both narrowed to bf16 first: at (p, q) the
    sum over k of block(p, k) · matrix(k, q), the narrowing being the identity on extended reals. -/
theorem product_entry (x : Vec Ideal S2000x128 .f32) (w : Vec Ideal S128x128 .f32) (p : Fin 2000) (q : Fin 128) :
    matmul dot_S2000x128_S128x128_S2000x128_1_0_0_1_n_n none (truncf .bf16 x bitsLt_bf16_f32 : FVec Ideal S2000x128 .bf16)
        (truncf .bf16 w bitsLt_bf16_f32 : FVec Ideal S128x128 .bf16) (constant S2000x128 .f32 0x00000000#32) (ix2 p q)
      = ∑ k : Fin 128, x (ix2 p k) * w (ix2 k q) :=
  Cert.LibOuterDot.matmul_zero_ix2 dot_S2000x128_S128x128_S2000x128_1_0_0_1_n_n rfl rfl rfl rfl rfl rfl rfl rfl none _ _ p q

/-- THE STORED ENTRY: the body's one stored value at (p, q), from the six blocks it loads. -/
theorem stored_entry (x y : Vec Ideal S2000x128 .f32) (w1 w2 : Vec Ideal S128x128 .f32) (b1 b2 : Vec Ideal S1x128 .f32)
    (p : Fin 2000) (q : Fin 128) :
    k0_pay1 (F := Ideal) x y w1 w2 b1 b2 (ix2 p q)
      = ((∑ k : Fin 128, x (ix2 p k) * w1 (ix2 k q)) + b1 (ix2 (0 : Fin 1) q) + ∑ k : Fin 128, y (ix2 p k) * w2 (ix2 k q))
          + b2 (ix2 (0 : Fin 1) q) := by
  unfold k0_pay1
  simp only [addf_apply, row_over_rows, shapeCast_self, product_entry]

end Cert.KernelIdeal.Block

end
-- ==== Proof.TwoLinear.lean ====
/-
  The function both programs compute, entry by entry, on the extended reals. For node features h [50000, 128],
  aggregated neighbour features a [50000, 128], weights W1, W2 [128, 128] and biases b1, b2 [128]:

      out(r, q) = ((Σ_k h(r, k) · W1(k, q) + b1(q)) + Σ_k a(r, k) · W2(k, q)) + b2(q),

  the two sums over k < 128, the additions grouped from the left exactly as both programs group them, so that no law of
  the extended reals beyond reading each operation at an index is needed (and none that fails at an infinity).
-/
import Idealize.ShloMosaic.Lib.ValueIdx

noncomputable section

open scoped BigOperators

namespace Cert.TwoLinear

open Idealize.ShloMosaic Idealize.ShloMosaic.ValueIdx

/-- One entry of the sum of two affine maps: row r of h through W1 plus b1, plus row r of a through W2, plus b2, at column q. -/
def entry (h a : (⟨2, ![50000, 128]⟩ : Shape).Idx → EReal) (W1 W2 : (⟨2, ![128, 128]⟩ : Shape).Idx → EReal)
    (b1 b2 : (⟨1, ![128]⟩ : Shape).Idx → EReal) (r : Fin 50000) (q : Fin 128) : EReal :=
  ((∑ k : Fin 128, h (ix2 r k) * W1 (ix2 k q)) + b1 (ix1 q) + ∑ k : Fin 128, a (ix2 r k) * W2 (ix2 k q)) + b2 (ix1 q)

/-- The whole [50000, 128] array of those entries. -/
def twoLinear (h a : (⟨2, ![50000, 128]⟩ : Shape).Idx → EReal) (W1 W2 : (⟨2, ![128, 128]⟩ : Shape).Idx → EReal)
    (b1 b2 : (⟨1, ![128]⟩ : Shape).Idx → EReal) : (⟨2, ![50000, 128]⟩ : Shape).Idx → EReal :=
  fun i => entry h a W1 W2 b1 b2 (i 0) (i 1)

/-- The array read at row r and column q. -/
theorem twoLinear_apply (h a : (⟨2, ![50000, 128]⟩ : Shape).Idx → EReal) (W1 W2 : (⟨2, ![128, 128]⟩ : Shape).Idx → EReal)
    (b1 b2 : (⟨1, ![128]⟩ : Shape).Idx → EReal) (r : Fin 50000) (q : Fin 128) :
    twoLinear h a W1 W2 b1 b2 (ix2 r q) = entry h a W1 W2 b1 b2 r q := rfl

end Cert.TwoLinear

end
-- ==== Proof.KernelArray.lean ====
/-
  The kernel's result array, on the extended reals. Grid point t of 25 writes back rows 2000·t … 2000·t + 1999 of the
  result. What it writes is that block of ONE whole-array function of the region's inputs — the two-affine-map array of
  h, a, W1, W2, b1, b2 — and the 25 blocks cover the array, so the array ends holding that function. The aggregated
  features a are what the host operations before the region left in their buffer; they are kept as that buffer's
  contents here.
-/
import proofs.«146880_j75634374082904_1_alg».proof.Proof.Gen.KernelIdeal.Value
import proofs.«146880_j75634374082904_1_alg».proof.Proof.Blocks
import proofs.«146880_j75634374082904_1_alg».proof.Proof.BlockValue
import proofs.«146880_j75634374082904_1_alg».proof.Proof.TwoLinear
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- THE RESULT: the two-affine-map array of the arguments and of the aggregated features the region finds. -/
abbrev result (c : Dev nD) : Buf (Elt Ideal) ((c : Thread nD τ).loc main_v21) :=
  Cert.TwoLinear.twoLinear (m ((c : Thread nD τ).loc main_arg0)) (V m c main_v18) (m ((c : Thread nD τ).loc main_arg3))
    (m ((c : Thread nD τ).loc main_arg5)) (m ((c : Thread nD τ).loc main_arg4)) (m ((c : Thread nD τ).loc main_arg6))

/-- Entry (p, q) of what the body stores at point t is entry (2000·t + p, q) of the result. -/
theorem stored_eq (c : Dev nD) (t : Fin cfg0.N) (p : Fin 2000) (q : Fin 128) (r : Fin 50000) (hr : r.val = 2000 * t.val + p.val) :
    k0_pay1 (F := Ideal) (iblk m c 0 t) (iblk m c 1 t) (iblk m c 2 t) (iblk m c 4 t) (iblk m c 3 t) (iblk m c 5 t) (ix2 p q)
      = result m c (ix2 r q) := by
  refine (Cert.KernelIdeal.Block.stored_entry (iblk m c 0 t) (iblk m c 1 t) (iblk m c 2 t) (iblk m c 4 t) (iblk m c 3 t) (iblk m c 5 t) p q).trans ?_
  refine Eq.trans ?_ (Cert.TwoLinear.twoLinear_apply _ _ _ _ _ _ r q).symm
  unfold Cert.TwoLinear.entry
  exact congrArg₂ (fun u v : EReal => u + v)
    (congrArg₂ (fun u v : EReal => u + v)
      (congrArg₂ (fun u v : EReal => u + v)
        (Finset.sum_congr rfl fun k _ => congrArg₂ (fun u v : EReal => u * v) (h_block m c t p k r hr) (w1_block m c t k q))
        (b1_block m c t q))
      (Finset.sum_congr rfl fun k _ => congrArg₂ (fun u v : EReal => u * v) (a_block m c t p k r hr) (w2_block m c t k q)))
    (b2_block m c t q)

/-- WHAT POINT t WRITES BACK is block t of the result. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S2000x128) hz, View.ld_unit_zero (S := S128x128) hz, View.ld_unit_zero (S := S1x128) hz]
  obtain ⟨e0, e1, -⟩ := idx_facts t
  funext j
  have hr : 2000 * t.val + (j 0).val < 50000 := by
    have := t.isLt; have hN : cfg0.N = 25 := N_0; have : (j 0).val < 2000 := (j 0).isLt; omega
  show k0_pay1 (F := Ideal) (iblk m c 0 t) (iblk m c 1 t) (iblk m c 2 t) (iblk m c 4 t) (iblk m c 3 t) (iblk m c 5 t) j
    = result m c (((cfg0.win 6).blk t).view.emb j)
  have hj : j = (ix2 (⟨(j 0).val, (j 0).isLt⟩ : Fin 2000) (⟨(j 1).val, (j 1).isLt⟩ : Fin 128) : S2000x128.Idx) :=
    funext fun a => Fin.ext (by match a with | ⟨0, _⟩ => rfl | ⟨1, _⟩ => rfl)
  have hi : ((cfg0.win 6).blk t).view.emb j
      = (ix2 (⟨2000 * t.val + (j 0).val, hr⟩ : Fin 50000) (⟨(j 1).val, (j 1).isLt⟩ : Fin 128) : S50000x128.Idx) := by
    funext a
    apply Fin.ext
    match a with
    | ⟨0, _⟩ => show win0_6.index t 0 * 2000 + 1 * (j 0).val = 2000 * t.val + (j 0).val; rw [e0]; omega
    | ⟨1, _⟩ => show win0_6.index t 1 * 128 + 1 * (j 1).val = (j 1).val; rw [e1]; omega
  rw [hi]
  refine (congrArg _ hj).trans ?_
  exact stored_eq m c t _ _ _ rfl

/-- An index of the array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v21).slice (win0_6.rect t)).set ↔ _
  rw [View.set_slice_whole, Rect.mem_set_unit]
  exact Iff.rfl

/-- Row r lies in the block of point r / 2000: the 25 blocks cover the array. -/
theorem cover (i : S50000x128.Idx) : ∃ t : Fin cfg0.N, (cfg0.win 6).flush t = true ∧ i ∈ ((cfg0.win 6).blk t).view.set := by
  have h0 : (i 0).val < 50000 := (i 0).isLt
  have h1 : (i 1).val < 128 := (i 1).isLt
  have hN : cfg0.N = 25 := N_0
  have ht : (i 0).val / 2000 < cfg0.N := by rw [hN]; omega
  obtain ⟨e0, e1, -⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ 0 * 2000 ≤ (i 0).val ∧ (i 0).val < win0_6.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ 1 * 128 ≤ (i 1).val ∧ (i 1).val < win0_6.index ⟨(i 0).val / 2000, ht⟩ 1 * 128 + 128
    rw [e1]; omega

/-- THE ARRAY after the run is the result. -/
theorem final (c : Dev nD) : (dats m 0 c).arrAt 6 cfg0.N = result m c :=
  (dats m 0 c).arrAt_eq_of_cover 6 (result m c) (fun t _ => flushed_eq m c t) cover

/-- The run, read: the result array at the two-affine-map array, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelIdeal.Whole

end
-- ==== Proof.RefValue.lean ====
/-
  The reference's result, read one operation at a time from the last addition down to its two matrix products, is the
  two-affine-map array of the node features and of the aggregated neighbour features (the quotient of the scattered
  sums by the clamped degrees, kept here as one unopened array): the first product plus b1 spread over the rows, plus
  the second product, plus b2 spread over the rows, in that grouping.
-/
import proofs.«146880_j75634374082904_1_alg».proof.Proof.Gen.ReferenceIdeal.Read
import proofs.«146880_j75634374082904_1_alg».proof.Proof.TwoLinear

noncomputable section

open scoped BigOperators

namespace Cert.ReferenceIdeal.RefValue

open Cert.ReferenceIdeal Cert.ReferenceIdeal.Gen Cert.ReferenceIdeal.Read Idealize.ShloMosaic Idealize.ShloMosaic.ValueIdx

/-- Row r of the first product's left operand at contraction index k. -/
theorem left_index (r : Fin 50000) (q k : Fin 128) : lidx_main_v19 (ix2 r q) k = ix2 r k :=
  funext fun a => Fin.ext (by match a with | ⟨0, _⟩ => rfl | ⟨1, _⟩ => rfl)

/-- Column q of the first product's right operand at contraction index k. -/
theorem right_index (r : Fin 50000) (q k : Fin 128) : ridx_main_v19 (ix2 r q) k = ix2 k q :=
  funext fun a => Fin.ext (by match a with | ⟨0, _⟩ => rfl | ⟨1, _⟩ => rfl)

/-- Row r of the second product's left operand at contraction index k. -/
theorem left_index' (r : Fin 50000) (q k : Fin 128) : lidx_main_v23 (ix2 r q) k = ix2 r k :=
  funext fun a => Fin.ext (by match a with | ⟨0, _⟩ => rfl | ⟨1, _⟩ => rfl)

/-- Column q of the second product's right operand at contraction index k. -/
theorem right_index' (r : Fin 50000) (q k : Fin 128) : ridx_main_v23 (ix2 r q) k = ix2 k q :=
  funext fun a => Fin.ext (by match a with | ⟨0, _⟩ => rfl | ⟨1, _⟩ => rfl)

/-- The first bias, spread to [1, 128] and then over the rows, reads its column. -/
theorem bias_index (r : Fin 50000) (q : Fin 128) : idx_main_v20 (idx_main_v21 (ix2 r q)) = ix1 q :=
  funext fun a => Fin.ext (by match a with | ⟨0, _⟩ => rfl)

/-- The second bias, spread to [1, 128] and then over the rows, reads its column. -/
theorem bias_index' (r : Fin 50000) (q : Fin 128) : idx_main_v25 (idx_main_v26 (ix2 r q)) = ix1 q :=
  funext fun a => Fin.ext (by match a with | ⟨0, _⟩ => rfl)

/-- THE REFERENCE'S RESULT is the two-affine-map array of h and of the aggregated features. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v27 (F := Ideal) x0 x1 x2 x3 x4 x5 x6
      = Cert.TwoLinear.twoLinear x0 (val_main_v18 (F := Ideal) x0 x1 x2) x3 x5 x4 x6 := by
  funext i
  obtain ⟨r, q, rfl⟩ : ∃ (r : Fin 50000) (q : Fin 128), i = ix2 r q := ⟨i 0, i 1, eq_ix2 i⟩
  rw [Cert.TwoLinear.twoLinear_apply, val_main_v27_apply, val_main_v24_apply, val_main_v22_apply, val_main_v19_apply,
    val_main_v21_apply, val_main_v20_apply, val_main_v23_apply, val_main_v26_apply, val_main_v25_apply]
  simp only [left_index, right_index, left_index', right_index', bias_index, bias_index']
  rfl

end Cert.ReferenceIdeal.RefValue

end
-- ==== Proof.Aggregate.lean ====
/-
  The aggregated neighbour features. Both programs compute them on the host by the same operations in the same order:
  negative source indices wrapped by 50000, the rows of h gathered along the edges, the rows scatter-added into their
  destination nodes from zero, the destinations' in-degrees scatter-added from zero, and the summed rows divided by the
  degrees clamped below at one. So the buffer the kernel's region finds them in holds exactly the reference's own stage,
  as a function of the same three arguments: the two terms are one, operation for operation, and nothing of the gather
  or of the scatters is opened.
-/
import proofs.«146880_j75634374082904_1_alg».proof.Proof.Gen.KernelIdeal.Frame
import proofs.«146880_j75634374082904_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.Aggregate

variable (m : (ℓ : Loc Cert.KernelIdeal.nD Cert.KernelIdeal.τ Cert.KernelIdeal.sig) → Buf (Elt Ideal) ℓ)

set_option maxHeartbeats 2000000 in
/-- What the kernel's region finds in the aggregated features' buffer is the reference's stage of the same name, of the
    kernel's first three arguments. -/
theorem found_eq (c : Dev Cert.KernelIdeal.nD) :
    (Cert.KernelIdeal.Gen.V m c Cert.KernelIdeal.main_v18 : Cert.KernelIdeal.S50000x128.Idx → EReal)
      = Cert.ReferenceIdeal.Read.val_main_v18 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]
  after_results_simp
  rfl

end Cert.Aggregate

end
-- ==== Proof.lean ====
/-
  A mean-aggregating graph layer, out = h · W1 + b1 + a · W2 + b2 over 50000 nodes and 128 features, where a is the
  mean over each node's incoming edges of the source nodes' feature rows (zero for a node with no incoming edge).

  Both programs compute a on the host by the same gather, the same two scatter-additions from zero and the same division
  by the in-degree clamped below at one, so a is one term of the arguments on both sides and is never opened. The kernel
  then computes the two products and the two bias additions in a pallas_call over 25 blocks of 2000 rows, its matrix
  operands narrowed to bf16 first; the reference computes them with two whole matrix products and broadcast additions.

  On the extended reals the narrowing is the identity, a matrix product into a zero accumulator is the plain sum over
  the contracted index, and both programs add in the same grouping ((h·W1 + b1) + a·W2) + b2. So entry (r, q) of either
  result is ((Σ_k h(r,k)·W1(k,q) + b1(q)) + Σ_k a(r,k)·W2(k,q)) + b2(q): the two results are equal without any law of
  the extended reals that could fail at an infinity, and the precondition (finite inputs) is not used.

  The kernel's array is assembled from its blocks: point t writes rows 2000·t … 2000·t + 1999, each block is that block
  of the one whole-array function, and the 25 blocks cover the array. No operation of the kernel was rewritten to read it
  on the extended reals, so nothing is owed for that reading.
-/
import proofs.«146880_j75634374082904_1_alg».proof.Defs
import proofs.«146880_j75634374082904_1_alg».proof.Proof.Gen.Kernel
import proofs.«146880_j75634374082904_1_alg».proof.Proof.Gen.Kernel.Skeleton
import proofs.«146880_j75634374082904_1_alg».proof.Proof.Gen.Kernel.Launch
import proofs.«146880_j75634374082904_1_alg».proof.Proof.Gen.Kernel.Points
import proofs.«146880_j75634374082904_1_alg».proof.Proof.Gen.Kernel.Frame
import proofs.«146880_j75634374082904_1_alg».proof.Proof.Gen.KernelIdeal
import proofs.«146880_j75634374082904_1_alg».proof.Proof.Gen.KernelIdeal.Skeleton
import proofs.«146880_j75634374082904_1_alg».proof.Proof.Gen.KernelIdeal.Launch
import proofs.«146880_j75634374082904_1_alg».proof.Proof.Gen.KernelIdeal.Points
import proofs.«146880_j75634374082904_1_alg».proof.Proof.Gen.KernelIdeal.Frame
import proofs.«146880_j75634374082904_1_alg».proof.Proof.Gen.ReferenceIdeal
import proofs.«146880_j75634374082904_1_alg».proof.Proof.Gen.Pre_finite_inputs
import proofs.«146880_j75634374082904_1_alg».proof.Proof.Gen.KernelIdeal.Value
import proofs.«146880_j75634374082904_1_alg».proof.Proof.Gen.ReferenceIdeal.Run
import proofs.«146880_j75634374082904_1_alg».proof.Proof.Gen.ReferenceIdeal.Read
import proofs.«146880_j75634374082904_1_alg».proof.Proof.KernelArray
import proofs.«146880_j75634374082904_1_alg».proof.Proof.RefValue
import proofs.«146880_j75634374082904_1_alg».proof.Proof.Aggregate
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: the reading on the extended reals is the kernel's own text. -/
theorem preserves : Cert.preserves_Kernel_KernelIdeal := trivial

/-- Both results are the two-affine-map array of the arguments and of the one aggregated-features term. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v27_eq, Cert.ReferenceIdeal.RefValue.result_eq, e0, e1, e2, e3, e4, e5, e6,
    ← Cert.Aggregate.found_eq m c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
